-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S64x128 : Shape := ⟨2, ![64, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S8192x128 .f32) (main_arg1 : FVec F S64x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Kernel.lean ====
abbrev S8192x128 : Shape := ⟨2, ![8192, 128]⟩
abbrev S64x128 : Shape := ⟨2, ![64, 128]⟩
abbrev S_ : Shape := ⟨0, ![]⟩
abbrev S8192 : Shape := ⟨1, ![8192]⟩
abbrev S1x8192 : Shape := ⟨2, ![1, 8192]⟩
abbrev S1x1 : Shape := ⟨2, ![1, 1]⟩
abbrev S256x128 : Shape := ⟨2, ![256, 128]⟩
abbrev S256 : Shape := ⟨1, ![256]⟩
abbrev S256x1 : Shape := ⟨2, ![256, 1]⟩
abbrev S256x8192 : Shape := ⟨2, ![256, 8192]⟩
abbrev S1 : Shape := ⟨1, ![1]⟩

abbrev nBuf : Space → Nat
  | .hbm => 10
  | .vmem => 3
  | .smem => 0
  | _ => 0

abbrev bufTy : (tb : Table) → Fin (tcTables nBuf tb) → BufTy
  | .hbm, ⟨0, _⟩ => ⟨S8192x128, .f32⟩
  | .hbm, ⟨1, _⟩ => ⟨S64x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S1x8192, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S8192x128, .f32⟩
  | .local _ .vmem, ⟨1, _⟩ => ⟨S1x8192, .f32⟩
  | .local _ .vmem, ⟨2, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v3 : BitVec 32 := Scalar.muli arg0 c256_i32
  v3
def k0_off1 (i : grid0.Coords) : Fin 2 → Nat :=
  let arg0 : BitVec 32 := BitVec.ofNat 32 (i 0).val
  let c256_i32 : BitVec 32 := 256#32
  let v3 : BitVec 32 := Scalar.muli arg0 c256_i32
  let v4 : BitVec 32 := v3
  let v5 : Index := Scalar.indexCast v4
  let c0 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  reducesTo_S8192x128_S8192_d1 : S8192x128.ReducesTo [1] S8192
  h_S_ : 0 < S_.numel
  shapeCasts_S8192_S1x8192 : S8192.ShapeCasts S1x8192
  inb_S1x1_S1x1_0_0 : ∀ a, (![0, 0] : Fin 2 → Nat) a + S1x1.size a ≤ S1x1.size a
  h_S1x1 : 0 < S1x1.numel
  h_S256x128 : 0 < S256x128.numel
  reduces_S256x128_S256 : S256x128.Reduces [1] S256
  shapeCasts_S256_S256x1 : S256.ShapeCasts S256x1
  bitsLt_bf16_f32 : FTy.bits .bf16 < FTy.bits .f32
  inb_S8192x128_S8192x128_0_0 : ∀ a, (![0, 0] : Fin 2 → Nat) a + S8192x128.size a ≤ S8192x128.size a
  h_S8192x128 : 0 < S8192x128.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S256x1_S256x8192 : S256x1.Broadcasts S256x8192
  broadcasts_S1x8192_S256x8192 : S1x8192.Broadcasts S256x8192
  reduces_S256x8192_S256 : S256x8192.Reduces [1] S256
  reduces_S256x1_S1 : S256x1.Reduces [0] S1
  shapeCasts_S1_S1x1 : S1.ShapeCasts S1x1
  shapeCasts_S1x1_S1x1 : S1x1.ShapeCasts S1x1
  shapeCasts_S1x1_S_ : S1x1.ShapeCasts S_
  dot_S256x128_S8192x128_S256x8192_1_1_0_0_n_n_wf : DotDims.WF S256x128 S8192x128 S256x8192 [1] [1] [0] [0] [] []
  hrank0 : 0 < grid0.rank
  k0_mult1_dvd : ∀ i : grid0.Coords, 256 ∣ (k0_mult1 i).toNat
  k0_off1_inb : ∀ i : grid0.Coords, ∀ a, (k0_off1 i) a + S256x128.size a ≤ S8192x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S256x128_S8192x128_S256x8192_1_1_0_0_n_n : DotDims S256x128 S8192x128 S256x8192 where
  lhsContracting := [1]
  rhsContracting := [1]
  lhsNonContracting := [0]
  rhsNonContracting := [0]
  lhsBatch := []
  rhsBatch := []
  wf := dot_S256x128_S8192x128_S256x8192_1_1_0_0_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S64x128 : Shape := ⟨2, ![64, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S64x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Pieces.lean ====
/-
  What one grid point of the kernel leaves in the accumulator's staging buffer, read off the pieces its stores wrote.

  The body has two cases. At the first grid point it stores a zero into the one-element accumulator, reads it back, and
  stores the sum of that zero and the point's partial sum: the last store covers the buffer, so what is left is the
  accumulation payload over the zero. At every later point it loads what the point before left and stores that plus the
  point's partial sum: one covering store, the accumulation payload over the carried value. In both cases the payload's
  other three loads read the staged point matrix through a window of 256 rows (the point's own block of rows), the whole
  staged point matrix, and the whole staged row of squared norms.
-/
import proofs.«172778_j15917148799715_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

/-- The zero offsets of a load or store of a whole buffer, however they are spelt. -/
theorem hz : (![0, 0] : Fin 2 → Nat) = fun _ => 0 := funext fun a => by fin_cases a <;> rfl

/-- The 256 consecutive rows of the staged point matrix the body loads at grid coordinates `i`: rows
    `k0_off1 i 0` … `k0_off1 i 0 + 255`, all 128 columns. -/
def rowsAt (i : grid0.Coords) (x0 : Vec F S8192x128 .f32) : Vec F S256x128 .f32 :=
  View.ld x0 (Rect.unit (s := S8192x128) (k0_off1 i) S256x128.size (k0_off1_inb i))

/-- A later grid point: over the carried accumulator `xo2` the body leaves the accumulation payload of the point's row
    block, the whole point matrix, the row of squared norms and `xo2`. -/
theorem out_later (c : Dev nD) (i : grid0.Coords) (a1 : Memref sig .tc .vmem S8192x128 .f32) (h1 : a1.IsWhole)
    (a2 : Memref sig .tc .vmem S1x8192 .f32) (h2 : a2.IsWhole) (a3 : Memref sig .tc .vmem S1x1 .f32) (h3 : a3.IsWhole)
    (hc : ¬cond0_0 i) (x0 : Vec F S8192x128 .f32) (x1 : Vec F S1x8192 .f32) (xo2 : Vec F S1x1 .f32) :
    out0_B_2 c i a1 h1 a2 h2 a3 h3 hc x0 x1 xo2 = k0_pay2 (rowsAt i x0) x0 x1 xo2 := by
  unfold out0_B_2
  rw [View.read_writes_eq_canon _ _ _ (cover0_B_2 c i a1 h1 a2 h2 a3 h3 hc x0 x1 xo2)]
  unfold kernelRun0_B
  dsimp only
  sl_unfold_words
  rw [View.canon_unit_zero (S := S1x1) hz]
  simp only [View.readAt_eq_ld, h1.read_unread, h2.read_unread, h3.read_unread, View.ld_unit_zero (S := S8192x128) hz,
    View.ld_unit_zero (S := S1x8192) hz, View.ld_unit_zero (S := S1x1) hz]
  rfl

/-- The first grid point: the body stores the zero, reads it back and leaves the accumulation payload over it. -/
theorem out_first (c : Dev nD) (i : grid0.Coords) (a1 : Memref sig .tc .vmem S8192x128 .f32) (h1 : a1.IsWhole)
    (a2 : Memref sig .tc .vmem S1x8192 .f32) (h2 : a2.IsWhole) (a3 : Memref sig .tc .vmem S1x1 .f32) (h3 : a3.IsWhole)
    (hc : cond0_0 i) (x0 : Vec F S8192x128 .f32) (x1 : Vec F S1x8192 .f32) :
    out0_A_2 c i a1 h1 a2 h2 a3 h3 hc x0 x1 = k0_pay2 (rowsAt i x0) x0 x1 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S8192x128) hz,
    View.ld_unit_zero (S := S1x8192) hz]
  rfl

/-- The row block of grid point `t` starts at row 256 t, column 0 (the body's integer chain, decided over the grid). -/
theorem rows_off : ∀ t : Fin cfg0.N, k0_off1 (grid0.coords t) 0 = 256 * t.val ∧ k0_off1 (grid0.coords t) 1 = 0 :=
  (by decide +kernel : ∀ t : Fin grid0.N, k0_off1 (grid0.coords t) 0 = 256 * t.val ∧ k0_off1 (grid0.coords t) 1 = 0)

end Cert.KernelIdeal.Body

end
-- ==== Proof.Spec.lean ====
/-
  The quantity both programs compute, as one function of the point matrix.

  The input is a matrix of 8192 points with 128 coordinates each. For two points i and j the squared distance is taken
  through the Gram identity, ‖xᵢ‖² + ‖xⱼ‖² - 2⟨xᵢ, xⱼ⟩, clamped below at zero; the weight of the pair is exp of minus that
  clamped distance; the quantity is the sum of the weights over all ordered pairs (its quotient by the number of pairs,
  2²⁶, is taken by the same host operation on both sides and is not part of this file).

  One side sums the 8192 × 8192 weights in one go. The other cuts the rows into 32 consecutive blocks of 256, sums each
  block's 256 × 8192 weights, and adds the block sums one after the other. Addition of extended reals is commutative and
  associative, so the two agree on every input, finite or not: the rows are in bijection with the pairs (block, row in
  the block), row r of block b being row 256 b + r.
-/
import Idealize.ShloMosaic.PureOps.Ideal
import Idealize.ShloMosaic.PureOps.Ideal.Laws
import Idealize.ShloMosaic.Lib.ValueIdx

noncomputable section

namespace Cert.PairMean

open Idealize.ShloMosaic Idealize.ShloMosaic.ValueIdx

/-- The point matrix: 8192 points, 128 coordinates each, as extended reals. -/
abbrev Pts : Type := (⟨2, ![8192, 128]⟩ : Shape).Idx → EReal

/-- The factor in front of the inner product, as both programs spell it: the binary32 word of 2. It is never
    evaluated: both sides multiply by the same word. -/
abbrev two : EReal := Ideal.ofBits .f32 0x40000000#32

/-- ‖xᵢ‖²: the sum of the squares of point i's coordinates. -/
def sqn (x : Pts) (i : Fin 8192) : EReal := ∑ k : Fin 128, x (ix2 i k) * x (ix2 i k)

/-- ⟨xᵢ, xⱼ⟩: the inner product of points i and j. -/
def gram (x : Pts) (i j : Fin 8192) : EReal := ∑ k : Fin 128, x (ix2 i k) * x (ix2 j k)

/-- The squared distance of points i and j by the Gram identity, clamped below at zero. -/
def dist (x : Pts) (i j : Fin 8192) : EReal := max ((sqn x i + sqn x j) - two * gram x i j) 0

/-- The weight of the ordered pair (i, j): exp of minus its clamped squared distance. -/
def wgt (x : Pts) (i j : Fin 8192) : EReal := Ideal.exp (-(dist x i j))

/-- The weights of point i against every point, summed. -/
def rowSum (x : Pts) (i : Fin 8192) : EReal := ∑ j : Fin 8192, wgt x i j

/-- The sum of the weights over all ordered pairs. -/
def total (x : Pts) : EReal := ∑ i : Fin 8192, rowSum x i

/-- The mean over the 2²⁶ ordered pairs, as both programs take it: the host's quotient of the scalar `s` by the binary32
    word of 67108864. Both sides apply this same operation to their sums, so it is carried as one function. -/
def meanOf (s : EReal) : (⟨0, ![]⟩ : Shape).Idx → EReal :=
  Host.divf (F := Ideal) (φ := .f32) (fun _ => s) (constant (F := Ideal) ⟨0, ![]⟩ .f32 0x4C800000#32)

/-- Row r of the b-th block of 256 consecutive rows: row 256 b + r (reduced modulo 8192 so that it is a row for every
    natural b; for b < 32 nothing is reduced). -/
def rowOf (b : ℕ) (r : Fin 256) : Fin 8192 := ⟨(256 * b + r.val) % 8192, Nat.mod_lt _ (by decide)⟩

theorem rowOf_val (b : ℕ) (hb : b < 32) (r : Fin 256) : (rowOf b r).val = 256 * b + r.val := by
  have := r.isLt
  show (256 * b + r.val) % 8192 = _
  omega

/-- The sum of the weights of the 256 rows of block b against every point. -/
def blockSum (x : Pts) (b : ℕ) : EReal := ∑ r : Fin 256, rowSum x (rowOf b r)

/-- A sum over the 8192 rows is the sum over the 32 blocks of the sums over each block's 256 rows. -/
theorem sum_rows_eq_blocks (g : Fin 8192 → EReal) :
    ∑ i : Fin 8192, g i = ∑ b ∈ Finset.range 32, ∑ r : Fin 256, g (rowOf b r) := by
  rw [← Fin.sum_univ_eq_sum_range (fun b => ∑ r : Fin 256, g (rowOf b r)) 32]
  rw [← Equiv.sum_comp (finProdFinEquiv (m := 32) (n := 256)) g, Fintype.sum_prod_type]
  refine Finset.sum_congr rfl fun b _ => Finset.sum_congr rfl fun r _ => congrArg g (Fin.ext ?_)
  have hb := b.isLt
  have hr := r.isLt
  show r.val + 256 * b.val = (256 * b.val + r.val) % 8192
  omega

/-- The sum over all pairs is the block sums added up. -/
theorem total_eq_blocks (x : Pts) : total x = ∑ b ∈ Finset.range 32, blockSum x b :=
  sum_rows_eq_blocks (rowSum x)

end Cert.PairMean

end
-- ==== Proof.LibKeepdims.lean ====
/-
  A column of per-row values kept as a rank-2 array with a trailing unit axis, read at an index: what a row reduction
  with the reduced axis kept (a sum over the last axis that stays rank 2) needs on the way back to full width.

    [a] cast to [a, 1]          reads, at (i, u), the operand at i, whatever the unit coordinate u;
    [a, 1] broadcast to [a, b]  reads, at (p, c), the operand's row p at its one column.

  Both are the row-major position argument of the leading-unit-axis forms with the axes exchanged.
-/
import Idealize.ShloMosaic.Lib.ValueIdx
import Idealize.ShloMosaic.Lib.Pipeline.Value

namespace Idealize.ShloMosaic.Keepdims

open Idealize.ShloMosaic Idealize.ShloMosaic.ValueIdx

variable {α : Type}

/-- An `[a]` array cast to `[a, 1]` reads, at `(i, u)`, the operand at `i`: position `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.Keepdims
-- ==== Proof.Payload.lean ====
/-
  The accumulation payload of one grid point, read at its one index over the extended reals.

  The payload takes the point's block of 256 rows `v6`, the whole point matrix `v11`, the row of squared norms `v14`
  and the carried accumulator `v31`. It squares `v6` and sums along the coordinates (the rows' squared norms, kept as a
  column), multiplies `v6` by the transpose of `v11` (the 256 × 8192 inner products; the two changes of format in front of
  the product are the identity on extended reals), forms column + row − 2 · product, clamps it below at zero, takes exp
  of zero minus it, sums along the 8192 columns and then along the 256 rows, and adds the result to the accumulator.
  When `v6` holds rows 256 b … 256 b + 255 of the point matrix `x`, `v11` holds `x` and `v14` holds the squared
  norms of `x`'s rows, that is the accumulator plus block b's sum of weights: 0 − d is −d, and every sum is read as a
  sum over its axis's coordinates.
-/
import proofs.«172778_j15917148799715_1_alg».proof.Proof.Gen.KernelIdeal.Skeleton
import proofs.«172778_j15917148799715_1_alg».proof.Proof.Spec
import proofs.«172778_j15917148799715_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx Idealize.ShloMosaic.Keepdims

namespace Cert.KernelIdeal.Payload

open Cert.KernelIdeal Cert.KernelIdeal.Gen Cert.PairMean

/-! ## The product's operand indices: output (r, j) and contraction position k read the left operand at (r, k), the right at (j, k) -/

theorem lhs_dot_0 (i : S256x8192.Idx) (q : dot_S256x128_S8192x128_S256x8192_1_1_0_0_n_n.contr.Idx) :
    (dot_S256x128_S8192x128_S256x8192_1_1_0_0_n_n.lhsIdx i q 0).val = (i 0).val := by
  unfold DotDims.lhsIdx
  rw [dif_neg (show ¬(0 : Fin S256x128.rank) ∈ dot_S256x128_S8192x128_S256x8192_1_1_0_0_n_n.lhsBatch by decide), dif_pos (show (0 : Fin S256x128.rank) ∈ dot_S256x128_S8192x128_S256x8192_1_1_0_0_n_n.lhsNonContracting by decide)]
  rfl
theorem lhs_dot_1 (i : S256x8192.Idx) (q : dot_S256x128_S8192x128_S256x8192_1_1_0_0_n_n.contr.Idx) :
    (dot_S256x128_S8192x128_S256x8192_1_1_0_0_n_n.lhsIdx i q 1).val = (q ⟨0, by decide⟩).val :=
  dot_S256x128_S8192x128_S256x8192_1_1_0_0_n_n.lhsIdx_val_of_single rfl i q
theorem rhs_dot_0 (i : S256x8192.Idx) (q : dot_S256x128_S8192x128_S256x8192_1_1_0_0_n_n.contr.Idx) :
    (dot_S256x128_S8192x128_S256x8192_1_1_0_0_n_n.rhsIdx i q 0).val = (i 1).val := by
  unfold DotDims.rhsIdx
  rw [dif_neg (show ¬(0 : Fin S8192x128.rank) ∈ dot_S256x128_S8192x128_S256x8192_1_1_0_0_n_n.rhsBatch by decide), dif_pos (show (0 : Fin S8192x128.rank) ∈ dot_S256x128_S8192x128_S256x8192_1_1_0_0_n_n.rhsNonContracting by decide)]
  rfl
theorem rhs_dot_1 (i : S256x8192.Idx) (q : dot_S256x128_S8192x128_S256x8192_1_1_0_0_n_n.contr.Idx) :
    (dot_S256x128_S8192x128_S256x8192_1_1_0_0_n_n.rhsIdx i q 1).val = (q ⟨0, by decide⟩).val :=
  dot_S256x128_S8192x128_S256x8192_1_1_0_0_n_n.rhsIdx_val_of_single rfl i q

/-- The product into the zero accumulator, at (r, j): the inner product of row r of the left operand and row j of the
    right one. -/
theorem product_apply (v6 : FVec Ideal S256x128 .f32) (v11 : FVec Ideal S8192x128 .f32) (r : Fin 256) (j : Fin 8192) :
    matmul dot_S256x128_S8192x128_S256x8192_1_1_0_0_n_n none (truncf .bf16 v6 bitsLt_bf16_f32) (truncf .bf16 v11 bitsLt_bf16_f32)
        (constant (F := Ideal) S256x8192 .f32 0x00000000#32) (ix2 r j)
      = ∑ k : Fin 128, v6 (ix2 r k) * v11 (ix2 j k) := by
  refine (Ideal.matmul_constant_zero_apply dot_S256x128_S8192x128_S256x8192_1_1_0_0_n_n none _ _ (ix2 r j)).trans ?_
  rw [← Equiv.sum_comp (ValueIdx.contrEquiv1 dot_S256x128_S8192x128_S256x8192_1_1_0_0_n_n 128 rfl rfl).symm]
  refine Finset.sum_congr rfl fun k _ => ?_
  have hk := ValueIdx.contrEquiv1_symm_val dot_S256x128_S8192x128_S256x8192_1_1_0_0_n_n 128 rfl rfl k
  have el : dot_S256x128_S8192x128_S256x8192_1_1_0_0_n_n.lhsIdx (ix2 r j) ((ValueIdx.contrEquiv1 dot_S256x128_S8192x128_S256x8192_1_1_0_0_n_n 128 rfl rfl).symm k) = ix2 r k := funext fun a => Fin.ext (by
    match a with
    | ⟨0, _⟩ => exact lhs_dot_0 _ _
    | ⟨1, _⟩ => exact (lhs_dot_1 _ _).trans hk)
  have er : dot_S256x128_S8192x128_S256x8192_1_1_0_0_n_n.rhsIdx (ix2 r j) ((ValueIdx.contrEquiv1 dot_S256x128_S8192x128_S256x8192_1_1_0_0_n_n 128 rfl rfl).symm k) = ix2 j k := funext fun a => Fin.ext (by
    match a with
    | ⟨0, _⟩ => exact rhs_dot_0 _ _
    | ⟨1, _⟩ => exact (rhs_dot_1 _ _).trans hk)
  rw [el, er]
  rfl

/-- The rows' squared norms kept as a column, at (r, u): the sum of the squares of row r's 128 entries. -/
theorem sqcol_apply (v6 : FVec Ideal S256x128 .f32) (r : Fin 256) (u : Fin 1) :
    shapeCast S256x1 (multiReduction .add [1] S256 (mulf v6 v6) 0x00000000#32 reduces_S256x128_S256 (.inl rfl) rfl) shapeCasts_S256_S256x1 (ix2 r u)
      = ∑ k : Fin 128, v6 (ix2 r k) * v6 (ix2 r k) := by
  refine (shapeCast_a_a1_apply _ shapeCasts_S256_S256x1 r u).trans ?_
  refine (Ideal.multiReduction_add_single (mulf v6 v6) 0x00000000#32 reduces_S256x128_S256 (.inl rfl) rfl (ix1 r)).trans ?_
  refine Finset.sum_congr rfl fun k _ => ?_
  have e : reduces_S256x128_S256.lift (ix1 r) k = ix2 r k :=
    funext fun a => Fin.ext (by match a with | ⟨0, _⟩ => rfl | ⟨1, _⟩ => rfl)
  exact congrArg (fun i => v6 i * v6 i) e

/-- One entry of the 256 × 8192 array of weights: from the column `A` of the rows' squared norms, the row `B` of all
    squared norms and the inner products `M`, exp of minus the clamped A + B − 2 M. -/
theorem weight_apply (A : FVec Ideal S256x1 .f32) (B : FVec Ideal S1x8192 .f32) (M : FVec Ideal S256x8192 .f32) (r : Fin 256) (j : Fin 8192) :
    exp (subf (broadcast S256x8192 (Scalar.ofBits (F := Ideal) .f32 0x00000000#32))
        (maximumf (subf (addf (broadcastTo S256x8192 A broadcasts_S256x1_S256x8192) (broadcastTo S256x8192 B broadcasts_S1x8192_S256x8192))
            (mulf (broadcast S256x8192 (Scalar.ofBits (F := Ideal) .f32 0x40000000#32)) M))
          (broadcast S256x8192 (Scalar.ofBits (F := Ideal) .f32 0x00000000#32)))) (ix2 r j)
      = Ideal.exp (-(max ((A (ix2 r (0 : Fin 1)) + B (ix2 (0 : Fin 1) j)) - two * M (ix2 r j)) 0)) := by
  show Ideal.exp (Ideal.ofBits .f32 0x00000000#32
      - max ((broadcastTo S256x8192 A broadcasts_S256x1_S256x8192 (ix2 r j) + broadcastTo S256x8192 B broadcasts_S1x8192_S256x8192 (ix2 r j))
          - Ideal.ofBits .f32 0x40000000#32 * M (ix2 r j)) (Ideal.ofBits .f32 0x00000000#32)) = _
  rw [broadcastTo_a1_ab_apply A broadcasts_S256x1_S256x8192 r j, broadcastTo_1b_ab_apply B broadcasts_S1x8192_S256x8192 r j,
    Ideal.ofBits_zero_f32, zero_sub]

/-- The two lane sums: an array `w` of 256 × 8192 entries summed along its columns, kept as a column, then along its
    rows into one entry, is the double sum of its entries. -/
theorem lanesums_apply (w : FVec Ideal S256x8192 .f32) (u v : Fin 1) :
    shapeCast S1x1 (multiReduction .add [0] S1
        (shapeCast S256x1 (multiReduction .add [1] S256 w 0x00000000#32 reduces_S256x8192_S256 (.inl rfl) rfl) shapeCasts_S256_S256x1)
        0x00000000#32 reduces_S256x1_S1 (.inl rfl) rfl) shapeCasts_S1_S1x1 (ix2 u v)
      = ∑ r : Fin 256, ∑ j : Fin 8192, w (ix2 r j) := by
  refine (shapeCast_a_1a_apply _ shapeCasts_S1_S1x1 u v).trans ?_
  refine (Ideal.multiReduction_add_single _ 0x00000000#32 reduces_S256x1_S1 (.inl rfl) rfl (ix1 v)).trans ?_
  refine Finset.sum_congr rfl fun r _ => ?_
  have e : reduces_S256x1_S1.lift (ix1 v) r = ix2 r v :=
    funext fun a => Fin.ext (by match a with | ⟨0, _⟩ => rfl | ⟨1, _⟩ => rfl)
  rw [e]
  refine (shapeCast_a_a1_apply _ shapeCasts_S256_S256x1 r v).trans ?_
  refine (Ideal.multiReduction_add_single w 0x00000000#32 reduces_S256x8192_S256 (.inl rfl) rfl (ix1 r)).trans ?_
  refine Finset.sum_congr rfl fun j _ => ?_
  exact congrArg w (funext fun a => Fin.ext (by match a with | ⟨0, _⟩ => rfl | ⟨1, _⟩ => rfl))

/-- THE PAYLOAD AT ITS INDEX. With the point's row block, the point matrix and the squared norms as the specification
    names them, the payload is the carried accumulator plus block `b`'s sum of weights. -/
theorem pay_apply (v6 : FVec Ideal S256x128 .f32) (v11 : FVec Ideal S8192x128 .f32) (v14 : FVec Ideal S1x8192 .f32)
    (v31 : FVec Ideal S1x1 .f32) (x : Pts) (b : ℕ)
    (h6 : ∀ (r : Fin 256) (k : Fin 128), v6 (ix2 r k) = x (ix2 (rowOf b r) k))
    (h11 : ∀ (j : Fin 8192) (k : Fin 128), v11 (ix2 j k) = x (ix2 j k))
    (h14 : ∀ j : Fin 8192, v14 (ix2 (0 : Fin 1) j) = sqn x j) :
    k0_pay2 v6 v11 v14 v31 (ix2 (0 : Fin 1) (0 : Fin 1)) = v31 (ix2 (0 : Fin 1) (0 : Fin 1)) + blockSum x b := by
  unfold k0_pay2
  dsimp only
  rw [addf_apply, shapeCast_self, shapeCast_self]
  refine congrArg (v31 (ix2 (0 : Fin 1) (0 : Fin 1)) + ·) ?_
  refine (lanesums_apply _ 0 0).trans ?_
  unfold blockSum rowSum
  refine Finset.sum_congr rfl fun r _ => Finset.sum_congr rfl fun j _ => ?_
  refine (weight_apply _ _ _ r j).trans ?_
  rw [sqcol_apply v6 r 0, product_apply v6 v11 r j, h14 j]
  unfold wgt Cert.PairMean.dist sqn gram
  simp only [h6, h11]

end Cert.KernelIdeal.Payload

end
-- ==== Proof.Accum.lean ====
/-
  The accumulator after each grid point, over the extended reals: after point n it holds the sum of the weights of blocks
  0 … n, that is the sum over b ≤ n of block b's sum.

  What the body finds at a point: the first window's block is the whole point matrix as launched (no host operation
  writes it before the region, and the window's one block at index (0, 0) is the array); the second window's block is the
  whole row of squared norms, which the host operations before the region compute as the sum of squares along each row
  from zero, reshaped to one row; the rows the body cuts out of the point matrix at point t are rows 256 t … 256 t + 255.
  So the accumulation payload adds block t's sum to what the point before left, starting from the zero the first point
  stores: by induction on the point, the running sum.
-/
import proofs.«172778_j15917148799715_1_alg».proof.Proof.Gen.KernelIdeal.Frame
import proofs.«172778_j15917148799715_1_alg».proof.Proof.Pieces
import proofs.«172778_j15917148799715_1_alg».proof.Proof.Payload
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem
open Idealize.ShloMosaic.ValueIdx
open Idealize.ShloMosaic.Pipeline (Dat)

namespace Cert.KernelIdeal.Accum

open Cert.KernelIdeal Cert.KernelIdeal.Gen Cert.KernelIdeal.Body Cert.KernelIdeal.Payload Cert.PairMean

variable (m : (ℓ : Loc nD τ sig) → Buf (Elt Ideal) ℓ) (ρ : Dev nD → PrngReg)

/-- The point matrix the program is launched with on core `c`. -/
abbrev pts (c : Dev nD) : Pts := m ((c : Thread nD τ).loc main_arg0)

/-- The first window's block at point `t`, at its literal type: the staged point matrix. -/
abbrev xblk (c : Dev nD) (t : Fin cfg0.N) : Vec Ideal S8192x128 .f32 := iblk m c 0 t
/-- The second window's block at point `t`, at its literal type: the staged row of squared norms. -/
abbrev nblk (c : Dev nD) (t : Fin cfg0.N) : Vec Ideal S1x8192 .f32 := iblk m c 1 t

/-! ## The windows' blocks are the whole arrays -/

theorem idx_pts : ∀ (t : Fin cfg0.N) (a : Fin 2), win0_0.index t a = 0 :=
  (by decide +kernel : ∀ (t : Fin grid0.N) (a : Fin 2), win0_0.index t a = 0)
theorem idx_norms : ∀ (t : Fin cfg0.N) (a : Fin 2), win0_1.index t a = 0 :=
  (by decide +kernel : ∀ (t : Fin grid0.N) (a : Fin 2), win0_1.index t a = 0)

/-- Reading any contents of the point matrix through the first window's block gives the contents back. -/
theorem read_ptsBlock (c : Dev nD) (t : Fin cfg0.N) (X : Buf (Elt Ideal) ((c : Thread nD τ).loc main_arg0)) :
    ((cfg0.win 0).blk t).view.read (Elt Ideal) X = X := by
  have hz' : (fun a => win0_0.index t a * main_arg0.ty.shape.size a) = fun _ => 0 :=
    funext fun a => by rw [idx_pts t a, Nat.zero_mul]
  exact Memref.read_access_unit_zero (Elt Ideal) main_arg0 hz' (fun a => by rw [congrFun hz' a]; simp) X

/-- Reading any contents of the row of squared norms through the second window's block gives the contents back. -/
theorem read_normsBlock (c : Dev nD) (t : Fin cfg0.N) (X : Buf (Elt Ideal) ((c : Thread nD τ).loc main_v2)) :
    ((cfg0.win 1).blk t).view.read (Elt Ideal) X = X := by
  have hz' : (fun a => win0_1.index t a * main_v2.ty.shape.size a) = fun _ => 0 :=
    funext fun a => by rw [idx_norms t a, Nat.zero_mul]
  exact Memref.read_access_unit_zero (Elt Ideal) main_v2 hz' (fun a => by rw [congrFun hz' a]; simp) X

/-- The staged point matrix is the launched one. -/
theorem xblk_eq (c : Dev nD) (t : Fin cfg0.N) : xblk m c t = pts m c :=
  (read_ptsBlock c t (V m c main_arg0)).trans (V_main_arg0 m c)

/-! ## The row of squared norms, as the host operations before the region leave it -/

/-- The second window's array when the region is entered: the host's sum of squares along the rows, from zero, as one row. -/
theorem norms_eq (c : Dev nD) : (V m c main_v2 : Vec Ideal S1x8192 .f32)
    = shapeCast S1x8192 (Host.reduceAdd (mulf (pts m c) (pts m c)) (constant (F := Ideal) S_ .f32 0x00000000#32)
        reducesTo_S8192x128_S8192_d1 h_S_) shapeCasts_S8192_S1x8192 := by
  show StableHlo.after hostOps0 (fun b => m (c, b)) (Proc.devRef .tc main_v2) = _
  after_results
  rfl

/-- Entry j of it is the squared norm of point j. -/
theorem sums_apply (x : FVec Ideal S8192x128 .f32) (j : Fin 8192) :
    shapeCast S1x8192 (Host.reduceAdd (mulf x x) (constant (F := Ideal) S_ .f32 0x00000000#32)
        reducesTo_S8192x128_S8192_d1 h_S_) shapeCasts_S8192_S1x8192 (ix2 (0 : Fin 1) j) = sqn x j := by
  refine (shapeCast_a_1a_apply _ shapeCasts_S8192_S1x8192 0 j).trans ?_
  generalize hy : mulf x x = y
  simp only [Host.reduceAdd, Ideal.hostReduceAdd_def]
  rw [Ideal.hostReduceAdd_single reducesTo_S8192x128_S8192_d1 (by decide)]
  show Ideal.ofBits .f32 0x00000000#32 + _ = _
  rw [Ideal.ofBits_zero_f32, zero_add]
  unfold sqn
  refine Finset.sum_congr rfl fun k _ => ?_
  subst hy
  exact congrArg (fun i => x i * x i) (funext fun a => Fin.ext (by match a with | ⟨0, _⟩ => rfl | ⟨1, _⟩ => rfl))

theorem nblk_apply (c : Dev nD) (t : Fin cfg0.N) (j : Fin 8192) : nblk m c t (ix2 (0 : Fin 1) j) = sqn (pts m c) j := by
  have e : nblk m c t = V m c main_v2 := read_normsBlock c t (V m c main_v2)
  rw [e, norms_eq]
  exact sums_apply (pts m c) j

/-! ## The rows the body cuts out at a point -/

/-- At grid point `t` the body's row window reads rows 256 t … 256 t + 255 of whatever the staged matrix holds. -/
theorem rows_apply (t : Fin cfg0.N) (X : Vec Ideal S8192x128 .f32) (r : Fin 256) (k : Fin 128) :
    rowsAt (grid0.coords t) X (ix2 r k) = X (ix2 (rowOf t.val r) k) := by
  have hN : t.val < 32 := lt_of_lt_of_eq t.isLt N_0
  unfold rowsAt
  show X _ = X _
  refine congrArg X (funext fun a => Fin.ext ?_)
  match a with
  | ⟨0, _⟩ =>
    show k0_off1 (grid0.coords t) 0 + 1 * r.val = (rowOf t.val r).val
    rw [(rows_off t).1, rowOf_val _ hN]; omega
  | ⟨1, _⟩ =>
    show k0_off1 (grid0.coords t) 1 + 1 * k.val = k.val
    rw [(rows_off t).2]; omega

/-! ## The accumulator, point by point -/

/-- After the first point: the accumulation payload over the stored zero. -/
theorem outs_first (c : Dev nD) (h : 0 < cfg0.N) :
    outsAt0 m c 0 h = k0_pay2 (rowsAt (grid0.coords ⟨0, h⟩) (xblk m c ⟨0, h⟩)) (xblk m c ⟨0, h⟩) (nblk m c ⟨0, h⟩) (k0_pay1 (F := Ideal)) :=
  (outsAt0_A m c ⟨0, h⟩ rfl).trans
    (out_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      ((hcond0_0 ⟨0, h⟩).mpr rfl) (xblk m c ⟨0, h⟩) (nblk m c ⟨0, h⟩))

/-- After a later point: the accumulation payload over what the point before left. -/
theorem outs_later (c : Dev nD) (n : ℕ) (h : n + 1 < cfg0.N) :
    outsAt0 m c (n + 1) h = k0_pay2 (rowsAt (grid0.coords ⟨n + 1, h⟩) (xblk m c ⟨n + 1, h⟩)) (xblk m c ⟨n + 1, h⟩) (nblk m c ⟨n + 1, h⟩)
      (outsAt0 m c n (Nat.lt_of_succ_lt h)) := by
  have hN : cfg0.N = 32 := N_0
  have hB : ¬(⟨n + 1, h⟩ : Fin cfg0.N).val % 32 = 0 := by dsimp only; omega
  exact (outsAt0_B m c ⟨n + 1, h⟩ hB).trans
    (out_later (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
      (fun hh => hB ((hcond0_0 ⟨n + 1, h⟩).mp hh)) (xblk m c ⟨n + 1, h⟩) (nblk m c ⟨n + 1, h⟩) (outsAt0 m c n (Nat.lt_of_succ_lt h)))

/-- One point's payload, at its index: what the accumulator held plus the point's block sum. -/
theorem step_apply (c : Dev nD) (t : Fin cfg0.N) (acc : Vec Ideal S1x1 .f32) :
    k0_pay2 (rowsAt (grid0.coords t) (xblk m c t)) (xblk m c t) (nblk m c t) acc (ix2 (0 : Fin 1) (0 : Fin 1))
      = acc (ix2 (0 : Fin 1) (0 : Fin 1)) + blockSum (pts m c) t.val :=
  pay_apply _ _ _ acc (pts m c) t.val
    (fun r k => (rows_apply t (xblk m c t) r k).trans (congrFun (xblk_eq m c t) _))
    (fun j k => congrFun (xblk_eq m c t) _)
    (fun j => nblk_apply m c t j)

/-- THE RUNNING SUM: after point n the accumulator holds the sums of blocks 0 … n. -/
theorem acc_eq (c : Dev nD) : ∀ (n : ℕ) (h : n < cfg0.N),
    outsAt0 m c n h (ix2 (0 : Fin 1) (0 : Fin 1)) = ∑ b ∈ Finset.range (n + 1), blockSum (pts m c) b
  | 0, h => by
    rw [outs_first m c h]
    refine (step_apply m c ⟨0, h⟩ (k0_pay1 (F := Ideal))).trans ?_
    rw [Finset.sum_range_one]
    show Ideal.ofBits .f32 0x00000000#32 + _ = _
    rw [Ideal.ofBits_zero_f32, zero_add]
  | n + 1, h => by
    rw [outs_later m c n h]
    refine (step_apply m c ⟨n + 1, h⟩ _).trans ?_
    rw [acc_eq c n]
    exact (Finset.sum_range_succ (blockSum (pts m c)) (n + 1)).symm

end Cert.KernelIdeal.Accum

end
-- ==== Proof.KernelRun.lean ====
/-
  The kernel's run, read: its result is the mean of the specification's total.

  The accumulator's window has one block, the whole one-element array, and writes it back once, after the last grid
  point (point 31): so the array ends holding what point 31 left, the sum of the block sums of blocks 0 … 31, which is
  the sum of the weights over all ordered pairs. The host operations after the region reshape that one element to a
  scalar and divide it by the number of pairs.
-/
import proofs.«172778_j15917148799715_1_alg».proof.Proof.Accum
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.ValueIdx
open Idealize.ShloMosaic.Pipeline (Dat)

namespace Cert.KernelIdeal.Mean

open Cert.KernelIdeal Cert.KernelIdeal.Gen Cert.KernelIdeal.Accum Cert.PairMean

variable (m : (ℓ : Loc nD τ sig) → Buf (Elt Ideal) ℓ) (ρ : Dev nD → PrngReg)

/-! ## The accumulator's array after the region -/

theorem idx_acc : ∀ (t : Fin cfg0.N) (a : Fin 2), win0_2.index t a = 0 :=
  (by decide +kernel : ∀ (t : Fin grid0.N) (a : Fin 2), win0_2.index t a = 0)

/-- Reading any contents of the accumulator's array through its window's block gives the contents back. -/
theorem read_accBlock (c : Dev nD) (t : Fin cfg0.N) (X : Buf (Elt Ideal) ((c : Thread nD τ).loc main_v3)) :
    ((cfg0.win 2).blk t).view.read (Elt Ideal) X = X := by
  have hz' : (fun a => win0_2.index t a * main_v3.ty.shape.size a) = fun _ => 0 :=
    funext fun a => by rw [idx_acc t a, Nat.zero_mul]
  exact Memref.read_access_unit_zero (Elt Ideal) main_v3 hz' (fun a => by rw [congrFun hz' a]; simp) X

/-- The last grid point. -/
abbrev tLast : Fin cfg0.N := ⟨31, by rw [show cfg0.N = 32 from N_0]; decide⟩

/-- What the last point leaves in the accumulator, as contents of its array. -/
abbrev result (c : Dev nD) : Buf (Elt Ideal) ((c : Thread nD τ).loc main_v3) := outsAt0 m c tLast.val tLast.isLt

/-- The one write-back, after point 31, writes it. -/
theorem flushed_eq (c : Dev nD) (t : Fin cfg0.N) (hf : (cfg0.win 2).flush t = true) :
    (dats m 0 c).flushed 2 t = ((cfg0.win 2).blk t).view.read (Elt Ideal) (result m c) := by
  have hN : cfg0.N = 32 := N_0
  have h31 : t.val = 31 := by have := (flush0_2 t).mp hf; have := t.isLt; omega
  obtain rfl : t = tLast := Fin.ext h31
  show (cfg0.win 2).cut (grid0.coords tLast) ((dats m 0 c).after 2 tLast) = _
  rw [after0_2]
  exact (read_accBlock c tLast (result m c)).symm

/-- So the array ends holding it: point 31's block is the whole array. -/
theorem final_acc (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v3).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 1 from by decide +kernel]; omega⟩

/-- Its one element is the sum of the weights over all ordered pairs. -/
theorem result_apply (c : Dev nD) : result m c (ix2 (0 : Fin 1) (0 : Fin 1)) = total (pts m c) := by
  rw [total_eq_blocks]
  exact acc_eq m c 31 tLast.isLt

/-! ## The host operations after the region -/

/-- The one-element array has one index. -/
theorem idx11_eq (y : S1x1.Idx) : y = ix2 (0 : Fin 1) (0 : Fin 1) := funext fun a => Fin.ext (by
  match a with
  | ⟨0, _⟩ => have h : (y 0 : Nat) < 1 := (y 0).isLt; show (y 0 : Nat) = 0; omega
  | ⟨1, _⟩ => have h : (y 1 : Nat) < 1 := (y 1).isLt; show (y 1 : Nat) = 0; omega)

/-- The program's result after the host's reshape and quotient: the mean of the total. -/
theorem tail_eq (c : Dev nD) :
    Pipeline.afterTail₀ cfgs (dats m) 0 (V0 m) [hostOps1] c main_v5 = meanOf (total (pts m c)) := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v3)
      = result m c :=
    (Pipeline.withArrays_arr spec0 launch0.win.arr_inj c (V0 m c) (fun w => (dats m 0 c).arrAt w cfg0.N) 2).trans (final_acc m c)
  unfold meanOf
  refine congrArg (fun s => Host.divf (F := Ideal) (φ := .f32) s (constant (F := Ideal) S_ .f32 0x4C800000#32)) (funext fun i => ?_)
  show shapeCast S_ (Pipeline.withArrays (cfgs 0).spec c (V0 m c) (fun w => (dats m 0 c).arrAt w (cfgs 0).N) (Proc.devRef .tc main_v3))
      shapeCasts_S1x1_S_ i = _
  rw [e]
  unfold shapeCast
  exact (congrArg (result m c) (idx11_eq _)).trans (result_apply m c)

/-- THE RUN: every weakly fair execution of the program ends with its result at the mean of the total of the launched
    point matrix, and both arguments as launched. -/
theorem run : θ_run defs (onTc (τ := τ) (main (F := Ideal))) ⟨m, fun _ => 0, ρ⟩ fun r => ∀ c : Dev nD,
      r.2.mem ((c.tc : Thread nD τ).loc main_v5) = meanOf (total (pts m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Mean

end
-- ==== Proof.RefValue.lean ====
/-
  The reference's stages read against the specification: its array of weights is `wgt`, entry by entry, and its sum
  over both axes from zero is `total`.

  The reference forms the rows' squared norms (a sum of squares along each row, from zero), lays them out once as a
  column and once as a row, broadcasts both to 8192 × 8192 and adds them; multiplies the point matrix by its transpose;
  subtracts twice the product; clamps below at zero; negates; takes exp; and sums everything. Reading each stage at an
  index (i, j): the column contributes ‖xᵢ‖², the row ‖xⱼ‖², the product ⟨xᵢ, xⱼ⟩ (the transposed operand at (k, j) is
  the matrix at (j, k)), and the sum over the two-axis index set is the double sum over its coordinates.
-/
import proofs.«172778_j15917148799715_1_alg».proof.Proof.Gen.ReferenceIdeal.Read
import proofs.«172778_j15917148799715_1_alg».proof.Proof.Spec
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read Cert.PairMean

/-- The reference's vector of squared norms at point i. -/
theorem norms_apply (x : Pts) (i : Fin 8192) : val_main_v1 (F := Ideal) x (ix1 i) = sqn x i := by
  rw [val_main_v1_apply, val_main_cst_apply]
  show Ideal.ofBits .f32 0x00000000#32 + _ = _
  rw [Ideal.ofBits_zero_f32, zero_add]
  unfold sqn
  refine Finset.sum_congr rfl fun k _ => ?_
  have e : idx_main_v1 (ix1 i) k = ix2 i k :=
    funext fun a => Fin.ext (by match a with | ⟨0, _⟩ => rfl | ⟨1, _⟩ => rfl)
  rw [val_main_v0_apply, e]
  rfl

/-- The reference's product of the point matrix with its transpose at (i, j): the inner product of points i and j. -/
theorem product_apply (x : Pts) (i j : Fin 8192) : val_main_v8 (F := Ideal) x (ix2 i j) = gram x i j := by
  rw [val_main_v8_apply]
  unfold gram
  refine Finset.sum_congr rfl fun k _ => ?_
  have el : lidx_main_v8 (ix2 i j) k = ix2 i k :=
    funext fun a => Fin.ext (by match a with | ⟨0, _⟩ => rfl | ⟨1, _⟩ => rfl)
  have er : idx_main_v7 (ridx_main_v8 (ix2 i j) k) = ix2 j k :=
    funext fun a => Fin.ext (by match a with | ⟨0, _⟩ => rfl | ⟨1, _⟩ => rfl)
  rw [val_main_v7_apply, el, er]

/-- The reference's array of weights at (i, j). -/
theorem weights_apply (x : Pts) (i j : Fin 8192) : val_main_v15 (F := Ideal) x (ix2 i j) = wgt x i j := by
  have e1 : idx_main_v2 (idx_main_v4 (ix2 i j)) = ix1 i :=
    funext fun a => Fin.ext (by match a with | ⟨0, _⟩ => rfl)
  have e2 : idx_main_v3 (idx_main_v5 (ix2 i j)) = ix1 j :=
    funext fun a => Fin.ext (by match a with | ⟨0, _⟩ => rfl)
  rw [val_main_v15_apply, val_main_v14_apply, val_main_v13_apply, val_main_v11_apply, val_main_v6_apply, val_main_v10_apply,
    val_main_v4_apply, val_main_v5_apply, val_main_v2_apply, val_main_v3_apply, val_main_v9_apply, val_main_cst_0_apply,
    val_main_v12_apply, val_main_cst_1_apply, e1, e2, norms_apply, norms_apply, product_apply]
  unfold wgt Cert.PairMean.dist
  simp only [Ideal.hostUnary_exp_def, Ideal.hostNegf_def, Ideal.negf_def, Ideal.maximumf_def, Ideal.subf_def, Ideal.addf_def,
    Ideal.mulf_def, Ideal.ofBits_def, Ideal.ofBits_zero_f32]

/-- The reference's sum over both axes, from zero: the sum of the weights over all ordered pairs. -/
theorem sum_apply (x : Pts) (i : S_.Idx) : val_main_v16 (F := Ideal) x i = total x := by
  rw [val_main_v16_apply, val_main_cst_2_apply]
  show Ideal.ofBits .f32 0x00000000#32 + _ = _
  rw [Ideal.ofBits_zero_f32, zero_add]
  refine (ValueIdx.sum_idx2 (n0 := 8192) (n1 := 8192) _).trans ?_
  unfold total rowSum
  exact Finset.sum_congr rfl fun i _ => Finset.sum_congr rfl fun j _ => weights_apply x i j

/-- So the reference's result is the mean of the specification's total. -/
theorem result_eq (x : Pts) : val_main_v17 (F := Ideal) x = meanOf (total x) := by
  have e : val_main_v16 (F := Ideal) x = fun _ => total x := funext (sum_apply x)
  unfold val_main_v17
  rw [e]
  rfl

end Cert.ReferenceIdeal.RefValue

end
-- ==== Proof.lean ====
/- The mean, over all ordered pairs of 8192 points in 128 dimensions, of exp of minus the clamped squared distance
   ‖xᵢ‖² + ‖xⱼ‖² − 2⟨xᵢ, xⱼ⟩: a kernel that walks the rows in 32 blocks of 256, adding each block's 256 × 8192 weights into a
   one-element accumulator it zeroes at the first block, against a reference that forms the whole 8192 × 8192 array of
   weights and sums it at once. Both then divide by the number of pairs.

   Over the extended reals the two are the same function of the point matrix on every input: each weight is the same
   expression on both sides (the kernel's changes of float format in front of its product are the identity, its 0 − d is
   the reference's −d, its product into a zero accumulator is the reference's product), the squared norms the kernel is
   handed as a row are the ones the reference computes, and the accumulator's running sum over the blocks is the double
   sum regrouped — addition of extended reals is commutative and associative, so no finiteness is used.

   Spec.lean states the function; Payload.lean reads one grid point's arithmetic as "accumulator plus the block's sum";
   Pieces.lean and Accum.lean read the accumulator after every grid point off the frame's run, by induction on the point;
   KernelRun.lean carries that through the single write-back and the host's reshape and quotient; RefValue.lean reads the
   reference's stages as the same function. The three frames are the generated ones; the idealization rewrote nothing. -/
import proofs.«172778_j15917148799715_1_alg».proof.Defs
import proofs.«172778_j15917148799715_1_alg».proof.Proof.Gen.Kernel
import proofs.«172778_j15917148799715_1_alg».proof.Proof.Gen.Kernel.Skeleton
import proofs.«172778_j15917148799715_1_alg».proof.Proof.Gen.Kernel.Launch
import proofs.«172778_j15917148799715_1_alg».proof.Proof.Gen.Kernel.Points
import proofs.«172778_j15917148799715_1_alg».proof.Proof.Gen.Kernel.Frame
import proofs.«172778_j15917148799715_1_alg».proof.Proof.Gen.KernelIdeal
import proofs.«172778_j15917148799715_1_alg».proof.Proof.Gen.KernelIdeal.Skeleton
import proofs.«172778_j15917148799715_1_alg».proof.Proof.Gen.KernelIdeal.Launch
import proofs.«172778_j15917148799715_1_alg».proof.Proof.Gen.KernelIdeal.Points
import proofs.«172778_j15917148799715_1_alg».proof.Proof.Gen.KernelIdeal.Frame
import proofs.«172778_j15917148799715_1_alg».proof.Proof.Gen.ReferenceIdeal
import proofs.«172778_j15917148799715_1_alg».proof.Proof.Gen.ReferenceIdeal.Run
import proofs.«172778_j15917148799715_1_alg».proof.Proof.Gen.ReferenceIdeal.Read
import proofs.«172778_j15917148799715_1_alg».proof.Proof.Gen.Pre_finite_inputs
import Idealize.ShloMosaic.Adequacy
import Idealize.ShloMosaic.Init
import proofs.«172778_j15917148799715_1_alg».proof.Proof.KernelRun
import proofs.«172778_j15917148799715_1_alg».proof.Proof.RefValue

noncomputable section

namespace Cert.Proof

open Idealize.ShloMosaic Idealize.SL.Sem Cert.PairMean

/-- The word-level kernel runs to the end and leaves its arguments as launched. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- Both programs end at the mean of the total weight of the point matrix they were launched with, and the matrices agree. -/
theorem algebraic : Cert.algebraic_KernelIdeal_ReferenceIdeal := by
  intro m ρ m' ρ' _ hagree
  refine ⟨fun c => meanOf (total (Cert.KernelIdeal.Accum.pts m c)), Cert.KernelIdeal.Mean.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, Cert.ReferenceIdeal.RefValue.result_eq, (hagree c).1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
